-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048 : Shape := ⟨1, ![2048]⟩
abbrev S64x2048 : Shape := ⟨2, ![64, 2048]⟩
abbrev S64 : Shape := ⟨1, ![64]⟩
abbrev S2048x64 : Shape := ⟨2, ![2048, 64]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_
  bcast_S_S2048x64 : S_.BroadcastsInDim S2048x64 (![] : Fin 0 → Fin S2048x64.rank)
  reducesTo_S2048x64_S_d0_1 : S2048x64.ReducesTo [0, 1] S_

variable [Facts]

def fn_part1 {F : FTy → Type} [FloatOps F] (main_arg4 : FVec F S64 .f32) (main_arg5 : FVec F S2048x64 .f32) (main_arg6 : FVec F S2048 .f32) (main_v13 : IVec S_ 1) (main_v16 : IVec S64x2048 1) : IVec S_ 1 :=
  let main_c_5 : IVec S_ 1 := constantI S_ 1 1#1
  let main_v17 : IVec S_ 1 := (fun x v => Host.reduce IntOp.andi x v reducesTo_S64x2048_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S2048x64 .f32 := Host.absf main_arg5
  let main_cst_8 : FVec F S_ .f32 := constant S_ .f32 0x7F800000#32
  let main_v25 : FVec F S2048x64 .f32 := broadcastInDim S2048x64 ![] bcast_S_S2048x64 main_cst_8
  let main_v26 : IVec S2048x64 1 := cmpf .olt main_v24 main_v25
  let main_c_9 : IVec S_ 1 := constantI S_ 1 1#1
  let main_v27 : IVec S_ 1 := (fun x v => Host.reduce IntOp.andi x v reducesTo_S2048x64_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S4x4096x2048 .f32) (main_arg1 : FVec F S2048 .f32) (main_arg2 : FVec F S2048 .f32) (main_arg3 : FVec F S64x2048 .f32) (main_arg4 : FVec F S64 .f32) (main_arg5 : FVec F S2048x64 .f32) (main_arg6 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S64x2048 .f32 := Host.absf main_arg3
  let main_cst_4 : FVec F S_ .f32 := constant S_ .f32 0x7F800000#32
  let main_v15 : FVec F S64x2048 .f32 := broadcastInDim S64x2048 ![] bcast_S_S64x2048 main_cst_4
  let main_v16 : IVec S64x2048 1 := cmpf .olt main_v14 main_v15
  fn_part1 (F := F) main_arg4 main_arg5 main_arg6 main_v13 main_v16
-- ==== Kernel.lean ====
abbrev S4x4096x2048 : Shape := ⟨3, ![4, 4096, 2048]⟩
abbrev S2048 : Shape := ⟨1, ![2048]⟩
abbrev S64x2048 : Shape := ⟨2, ![64, 2048]⟩
abbrev S64 : Shape := ⟨1, ![64]⟩
abbrev S2048x64 : Shape := ⟨2, ![2048, 64]⟩
abbrev S16384x2048 : Shape := ⟨2, ![16384, 2048]⟩
abbrev S512x2048 : Shape := ⟨2, ![512, 2048]⟩
abbrev S512 : Shape := ⟨1, ![512]⟩
abbrev S512x1 : Shape := ⟨2, ![512, 1]⟩
abbrev S1x2048 : Shape := ⟨2, ![1, 2048]⟩
abbrev S512x64 : Shape := ⟨2, ![512, 64]⟩
abbrev S1x64 : Shape := ⟨2, ![1, 64]⟩

abbrev nBuf : Space → Nat
  | .hbm => 14
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048, .f32⟩
  | .hbm, ⟨3, _⟩ => ⟨S64x2048, .f32⟩
  | .hbm, ⟨4, _⟩ => ⟨S64, .f32⟩
  | .hbm, ⟨5, _⟩ => ⟨S2048x64, .f32⟩
  | .hbm, ⟨6, _⟩ => ⟨S2048, .f32⟩
  | .hbm, ⟨7, _⟩ => ⟨S16384x2048, .f32⟩
  | .hbm, ⟨8, _⟩ => ⟨S2048x64, .f32⟩
  | .hbm, ⟨9, _⟩ => ⟨S2048x64, .bf16⟩
  | .hbm, ⟨10, _⟩ => ⟨S64x2048, .f32⟩
  | .hbm, ⟨11, _⟩ => ⟨S64x2048, .bf16⟩
  | .hbm, ⟨12, _⟩ => ⟨S16384x2048, .f32⟩
  | .hbm, ⟨13, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S2048, .f32⟩
  | .local _ .vmem, ⟨3, _⟩ => ⟨S2048, .f32⟩
  | .local _ .vmem, ⟨4, _⟩ => ⟨S2048x64, .bf16⟩
  | .local _ .vmem, ⟨5, _⟩ => ⟨S64, .f32⟩
  | .local _ .vmem, ⟨6, _⟩ => ⟨S64x2048, .bf16⟩
  | .local _ .vmem, ⟨7, _⟩ => ⟨S2048, .f32⟩
  | .local _ .vmem, ⟨8, _⟩ => ⟨S512x2048, .f32⟩
  | .local _ .vmem, ⟨9, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x4096x2048_S16384x2048 : S4x4096x2048.ShapeCasts S16384x2048
  transposes_S64x2048_S2048x64_1_0 : S64x2048.Transposes [1, 0] S2048x64
  bitsLt_bf16_f32 : FTy.bits .bf16 < FTy.bits .f32
  transposes_S2048x64_S64x2048_1_0 : S2048x64.Transposes [1, 0] S64x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S512x2048 : S1x2048.Broadcasts S512x2048
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  shapeCasts_S16384x2048_S4x4096x2048 : S16384x2048.ShapeCasts S4x4096x2048
  dot_S512x2048_S2048x64_S512x64_1_0_0_1_n_n_wf : DotDims.WF S512x2048 S2048x64 S512x64 [1] [0] [0] [1] [] []
  dot_S512x64_S64x2048_S512x2048_1_0_0_1_n_n_wf : DotDims.WF S512x64 S64x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S2048.size a
  hwx0_1 : ∀ i : grid0.Coords, EltTy.bits .f32 = 32 ∨ (Rect.block (s := S2048) S2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S2048x64.size a
  hwx0_3 : ∀ i : grid0.Coords, EltTy.bits .bf16 = 32 ∨ (Rect.block (s := S2048x64) S2048x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x2048.size a ≤ S64x2048.size a
  hwx0_5 : ∀ i : grid0.Coords, EltTy.bits .bf16 = 32 ∨ (Rect.block (s := S64x2048) S64x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S2048.size a
  hwx0_6 : ∀ i : grid0.Coords, EltTy.bits .f32 = 32 ∨ (Rect.block (s := S2048) S2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S16384x2048.size a
  hwx0_7 : ∀ i : grid0.Coords, EltTy.bits .f32 = 32 ∨ (Rect.block (s := S16384x2048) S512x2048.size (cc0_transform_7 i) (hinb0_7 i)).WholeWords (EltTy.packing .f32)

variable [Facts₀]

def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S64x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S512x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048 : Shape := ⟨1, ![2048]⟩
abbrev S64x2048 : Shape := ⟨2, ![64, 2048]⟩
abbrev S64 : Shape := ⟨1, ![64]⟩
abbrev S2048x64 : Shape := ⟨2, ![2048, 64]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x64 : Shape := ⟨3, ![4, 4096, 64]⟩
abbrev S1x1x64 : Shape := ⟨3, ![1, 1, 64]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048, .f32⟩
  | .hbm, ⟨3, _⟩ => ⟨S64x2048, .f32⟩
  | .hbm, ⟨4, _⟩ => ⟨S64, .f32⟩
  | .hbm, ⟨5, _⟩ => ⟨S2048x64, .f32⟩
  | .hbm, ⟨6, _⟩ => ⟨S2048, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x2048, .f32⟩
  | .hbm, ⟨23, _⟩ => ⟨S4x4096x2048, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x2048, .f32⟩
  | .hbm, ⟨29, _⟩ => ⟨S4x4096x2048, .f32⟩
  | .hbm, ⟨30, _⟩ => ⟨S1x1x2048, .f32⟩
  | .hbm, ⟨31, _⟩ => ⟨S4x4096x2048, .f32⟩
  | .hbm, ⟨32, _⟩ => ⟨S4x4096x2048, .f32⟩
  | .hbm, ⟨33, _⟩ => ⟨S1x1x2048, .f32⟩
  | .hbm, ⟨34, _⟩ => ⟨S4x4096x2048, .f32⟩
  | .hbm, ⟨35, _⟩ => ⟨S4x4096x2048, .f32⟩
  | .hbm, ⟨36, _⟩ => ⟨S4x4096x64, .f32⟩
  | .hbm, ⟨37, _⟩ => ⟨S1x1x64, .f32⟩
  | .hbm, ⟨38, _⟩ => ⟨S4x4096x64, .f32⟩
  | .hbm, ⟨39, _⟩ => ⟨S4x4096x64, .f32⟩
  | .hbm, ⟨40, _⟩ => ⟨S_, .f32⟩
  | .hbm, ⟨41, _⟩ => ⟨S4x4096x64, .f32⟩
  | .hbm, ⟨42, _⟩ => ⟨S4x4096x64, .f32⟩
  | .hbm, ⟨43, _⟩ => ⟨S4x4096x2048, .f32⟩
  | .hbm, ⟨44, _⟩ => ⟨S1x1x2048, .f32⟩
  | .hbm, ⟨45, _⟩ => ⟨S4x4096x2048, .f32⟩
  | .hbm, ⟨46, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  reducesTo_S4x4096x2048_S4x4096_d2 : S4x4096x2048.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x2048_0_1_2 : S4x4096x1.BroadcastsInDim S4x4096x2048 (![0, 1, 2] : Fin 3 → Fin S4x4096x2048.rank)
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  bcast_S_S4x4096x64 : S_.BroadcastsInDim S4x4096x64 (![] : Fin 0 → Fin S4x4096x64.rank)
  dot_S4x4096x2048_S64x2048_S4x4096x64_2_1_01_0_n_n_wf : DotDims.WF S4x4096x2048 S64x2048 S4x4096x64 [2] [1] [0, 1] [0] [] []
  dot_S4x4096x64_S2048x64_S4x4096x2048_2_1_01_0_n_n_wf : DotDims.WF S4x4096x64 S2048x64 S4x4096x2048 [2] [1] [0, 1] [0] [] []

variable [Facts₀]

def dot_S4x4096x2048_S64x2048_S4x4096x64_2_1_01_0_n_n : DotDims S4x4096x2048 S64x2048 S4x4096x64 where
  lhsContracting := [2]
  rhsContracting := [1]
  lhsNonContracting := [0, 1]
  rhsNonContracting := [0]
  lhsBatch := []
  rhsBatch := []
  wf := dot_S4x4096x2048_S64x2048_S4x4096x64_2_1_01_0_n_n_wf
def dot_S4x4096x64_S2048x64_S4x4096x2048_2_1_01_0_n_n : DotDims S4x4096x64 S2048x64 S4x4096x2048 where
  lhsContracting := [2]
  rhsContracting := [1]
  lhsNonContracting := [0, 1]
  rhsNonContracting := [0]
  lhsBatch := []
  rhsBatch := []
  wf := dot_S4x4096x64_S2048x64_S4x4096x2048_2_1_01_0_n_n_wf

class Facts : Prop extends Facts₀ where

variable [Facts]
-- ==== Proof.AdapterSpec.lean ====
/-
  The adapter layer as mathematics, one row at a time, on the extended reals.

  A row `xr` of 2048 entries is normalised (LayerNorm: subtract the mean, scale by the reciprocal square root of the
  variance plus ε, then an affine map with `γ` and `β`), projected down to 64 entries (a matrix `Wd`, a bias `bd`),
  clipped below at zero, and projected back up to 2048 entries (a matrix `Wu`, a bias `bu`). Nothing here mentions a
  program: both programs of the certificate are shown to compute `rowOut` of the same row of the same arguments.

  The three float literals the two programs share (2048, ε = f32(1e-5) and 0) are kept as the words they are printed as;
  they are the same words on both sides, so their values never enter the argument.
-/
import Idealize.ShloMosaic.PureOps.Ideal
import Idealize.ShloMosaic.PureOps.Ideal.Laws
import Idealize.ShloMosaic.Lib.ValueIdx

noncomputable section

open scoped BigOperators

namespace Cert.Adapter

open Idealize.ShloMosaic Idealize.ShloMosaic.ValueIdx

/-- The row's mean: the sum of its 2048 entries divided by (the f32 word of) 2048. -/
def rowMean (xr : Fin 2048 → EReal) : EReal :=
  Ideal.div (∑ k : Fin 2048, xr k) (Ideal.ofBits .f32 0x45000000#32)

/-- The row's variance: the mean of the squared deviations from the mean. -/
def rowVar (xr : Fin 2048 → EReal) : EReal :=
  Ideal.div (∑ k : Fin 2048, (xr k - rowMean xr) * (xr k - rowMean xr)) (Ideal.ofBits .f32 0x45000000#32)

/-- LayerNorm of the row at column `d`: `(x − μ) · (σ² + ε)^(-1/2) · γ + β`. -/
def rowNorm (xr γ β : Fin 2048 → EReal) (d : Fin 2048) : EReal :=
  (xr d - rowMean xr) * Ideal.rsqrt (rowVar xr + Ideal.ofBits .f32 0x3727C5AC#32) * γ d + β d

/-- The bottleneck activation `j`: the normalised row against row `j` of the down projection, plus its bias, clipped
    below at zero. -/
def rowHidden (xr γ β : Fin 2048 → EReal) (Wd : Fin 64 → Fin 2048 → EReal) (bd : Fin 64 → EReal) (j : Fin 64) : EReal :=
  max ((∑ k : Fin 2048, rowNorm xr γ β k * Wd j k) + bd j) (Ideal.ofBits .f32 0x00000000#32)

/-- The layer's output at column `d`: the 64 activations against row `d` of the up projection, plus its bias. -/
def rowOut (xr γ β : Fin 2048 → EReal) (Wd : Fin 64 → Fin 2048 → EReal) (bd : Fin 64 → EReal)
    (Wu : Fin 2048 → Fin 64 → EReal) (bu : Fin 2048 → EReal) (d : Fin 2048) : EReal :=
  (∑ j : Fin 64, rowHidden xr γ β Wd bd j * Wu d j) + bu d

/-- `rowOut` depends on its seven arguments through their values only: rows, weights and biases that agree entry by
    entry give the same output. -/
theorem rowOut_congr {xr xr' γ γ' β β' : Fin 2048 → EReal} {Wd Wd' : Fin 64 → Fin 2048 → EReal} {bd bd' : Fin 64 → EReal}
    {Wu Wu' : Fin 2048 → Fin 64 → EReal} {bu bu' : Fin 2048 → EReal}
    (hx : ∀ k, xr k = xr' k) (hγ : ∀ k, γ k = γ' k) (hβ : ∀ k, β k = β' k) (hWd : ∀ j k, Wd j k = Wd' j k)
    (hbd : ∀ j, bd j = bd' j) (hWu : ∀ e j, Wu e j = Wu' e j) (hbu : ∀ e, bu e = bu' e) (d : Fin 2048) :
    rowOut xr γ β Wd bd Wu bu d = rowOut xr' γ' β' Wd' bd' Wu' bu' d := by
  obtain rfl : xr = xr' := funext hx
  obtain rfl : γ = γ' := funext hγ
  obtain rfl : β = β' := funext hβ
  obtain rfl : Wd = Wd' := funext fun j => funext (hWd j)
  obtain rfl : bd = bd' := funext hbd
  obtain rfl : Wu = Wu' := funext fun e => funext (hWu e)
  obtain rfl : bu = bu' := funext hbu
  rfl

/-- The whole result, over the arguments' own shapes: entry `(b, s, d)` is `rowOut` of row `(b, s)` of `x` at `d`, the
    down projection stored `[64, 2048]` and the up projection `[2048, 64]` as the arguments are. -/
def layer (x : (⟨3, ![4, 4096, 2048]⟩ : Shape).Idx → EReal) (γ β : (⟨1, ![2048]⟩ : Shape).Idx → EReal)
    (wd : (⟨2, ![64, 2048]⟩ : Shape).Idx → EReal) (bd : (⟨1, ![64]⟩ : Shape).Idx → EReal)
    (wu : (⟨2, ![2048, 64]⟩ : Shape).Idx → EReal) (bu : (⟨1, ![2048]⟩ : Shape).Idx → EReal) :
    (⟨3, ![4, 4096, 2048]⟩ : Shape).Idx → EReal := fun i =>
  rowOut (fun k => x (ix3 (i 0) (i 1) k)) (fun k => γ (ix1 k)) (fun k => β (ix1 k)) (fun j k => wd (ix2 j k))
    (fun j => bd (ix1 j)) (fun e j => wu (ix2 e j)) (fun e => bu (ix1 e)) (i 2)

/-- The same read at an index given by its coordinates. -/
theorem layer_apply (x : (⟨3, ![4, 4096, 2048]⟩ : Shape).Idx → EReal) (γ β : (⟨1, ![2048]⟩ : Shape).Idx → EReal)
    (wd : (⟨2, ![64, 2048]⟩ : Shape).Idx → EReal) (bd : (⟨1, ![64]⟩ : Shape).Idx → EReal)
    (wu : (⟨2, ![2048, 64]⟩ : Shape).Idx → EReal) (bu : (⟨1, ![2048]⟩ : Shape).Idx → EReal)
    (b : Fin 4) (s : Fin 4096) (d : Fin 2048) :
    layer x γ β wd bd wu bu (ix3 b s d)
      = rowOut (fun k => x (ix3 b s k)) (fun k => γ (ix1 k)) (fun k => β (ix1 k)) (fun j k => wd (ix2 j k))
          (fun j => bd (ix1 j)) (fun e j => wu (ix2 e j)) (fun e => bu (ix1 e)) d := rfl

end Cert.Adapter

end
-- ==== Proof.RefValue.lean ====
/-
  The reference program computes the adapter layer: its result, stage by stage, is `Cert.Adapter.layer` of its arguments.

  The reference works on the `[4, 4096, 2048]` array directly. Each of its stages is read at an index (the generated
  read-at-an-index lemmas); a stage that has lost the last axis (a mean, a variance, their broadcasts) depends on the
  row `(b, s)` only, and the two contractions are sums over the 2048 columns and over the 64 bottleneck units. What is
  proved here is that every stage is the corresponding row function of `AdapterSpec` of row `(b, s)` of `x`; the host's
  sums start from the literal `0`, which is the extended real zero and is dropped.
-/
import proofs.«118989_j37280316129983_1_alg».proof.Proof.Gen.ReferenceIdeal.Read
import proofs.«118989_j37280316129983_1_alg».proof.Proof.AdapterSpec

noncomputable section

open scoped BigOperators

namespace Cert.ReferenceIdeal.RefValue

open Cert.ReferenceIdeal Cert.ReferenceIdeal.Gen Cert.ReferenceIdeal.Read Cert.Adapter
open Idealize.ShloMosaic Idealize.ShloMosaic.ValueIdx

/-- Row `(b, s)` of the input. -/
abbrev row (x0 : S4x4096x2048.Idx → EReal) (b : Fin 4) (s : Fin 4096) : Fin 2048 → EReal := fun k => x0 (ix3 b s k)

variable (x0 : (⟨S4x4096x2048, .f32⟩ : BufTy).Contents (Elt Ideal))
  (x1 x2 : (⟨S2048, .f32⟩ : BufTy).Contents (Elt Ideal)) (x3 : (⟨S64x2048, .f32⟩ : BufTy).Contents (Elt Ideal))
  (x4 : (⟨S64, .f32⟩ : BufTy).Contents (Elt Ideal)) (x5 : (⟨S2048x64, .f32⟩ : BufTy).Contents (Elt Ideal))
  (x6 : (⟨S2048, .f32⟩ : BufTy).Contents (Elt Ideal))

/-- The mean stage (kept as a column) is the mean of the index's row. -/
theorem mean_at (i : S4x4096x1.Idx) : val_main_v3 (F := Ideal) x0 i = rowMean (row x0 (i 0) (i 1)) := by
  rw [val_main_v3_apply, val_main_v1_apply, val_main_v0_apply, val_main_v2_apply, val_main_cst_0_apply, val_main_cst_apply]
  simp only [Ideal.hostDivf_def, Ideal.ofBits_def, Ideal.ofBits_zero_f32, zero_add]
  refine congrArg (fun z => Ideal.div z _) (Finset.sum_congr rfl fun k _ => congrArg x0 (funext fun a => ?_))
  match a with
  | ⟨0, _⟩ => rfl
  | ⟨1, _⟩ => rfl
  | ⟨2, _⟩ => rfl

/-- The centred input (the reference computes it twice, for the variance and for the output). -/
theorem centred_at (i : S4x4096x2048.Idx) :
    val_main_v5 (F := Ideal) x0 i = x0 i - rowMean (row x0 (i 0) (i 1)) := by
  rw [val_main_v5_apply, val_main_v4_apply, mean_at]
  rfl

theorem centred_at' (i : S4x4096x2048.Idx) :
    val_main_v12 (F := Ideal) x0 i = x0 i - rowMean (row x0 (i 0) (i 1)) := by
  rw [val_main_v12_apply, val_main_v11_apply, mean_at]
  rfl

/-- The variance stage is the variance of the index's row. -/
theorem var_at (i : S4x4096x1.Idx) : val_main_v10 (F := Ideal) x0 i = rowVar (row x0 (i 0) (i 1)) := by
  rw [val_main_v10_apply, val_main_v8_apply, val_main_v7_apply, val_main_v9_apply, val_main_cst_2_apply, val_main_cst_1_apply]
  simp only [Ideal.hostDivf_def, Ideal.ofBits_def, Ideal.ofBits_zero_f32, zero_add]
  refine congrArg (fun z => Ideal.div z _) (Finset.sum_congr rfl fun k _ => ?_)
  rw [val_main_v6_apply, centred_at,
    show idx_main_v7 (idx_main_v8 i) k = ix3 (i 0) (i 1) k from funext fun a => by
      match a with
      | ⟨0, _⟩ => rfl
      | ⟨1, _⟩ => rfl
      | ⟨2, _⟩ => rfl]
  rfl

/-- The normalised, scaled and shifted input. -/
theorem norm_at (i : S4x4096x2048.Idx) :
    val_main_v23 (F := Ideal) x0 x1 x2 i
      = rowNorm (row x0 (i 0) (i 1)) (fun k => x1 (ix1 k)) (fun k => x2 (ix1 k)) (i 2) := by
  rw [val_main_v23_apply, val_main_v20_apply, val_main_v17_apply, centred_at', val_main_v16_apply, val_main_v15_apply,
    val_main_v14_apply, var_at, val_main_v13_apply, val_main_cst_3_apply, val_main_v19_apply, val_main_v18_apply,
    val_main_v22_apply, val_main_v21_apply]
  simp only [Ideal.addf_def, Ideal.mulf_def, Ideal.hostUnary_rsqrt_def, Ideal.ofBits_def]
  rw [show idx_main_v18 (idx_main_v19 i) = ix1 (i 2) from funext fun a => by match a with | ⟨0, _⟩ => rfl,
    show idx_main_v21 (idx_main_v22 i) = ix1 (i 2) from funext fun a => by match a with | ⟨0, _⟩ => rfl,
    show x0 i = row x0 (i 0) (i 1) (i 2) from congrArg x0 (eq_ix3 i)]
  rfl

/-- The bottleneck activations. -/
theorem hidden_at (i : S4x4096x64.Idx) :
    val_main_v29 (F := Ideal) x0 x1 x2 x3 x4 i
      = rowHidden (row x0 (i 0) (i 1)) (fun k => x1 (ix1 k)) (fun k => x2 (ix1 k)) (fun j k => x3 (ix2 j k))
          (fun j => x4 (ix1 j)) (i 2) := by
  rw [val_main_v29_apply, val_main_v27_apply, val_main_v24_apply, val_main_v26_apply, val_main_v25_apply,
    val_main_v28_apply, val_main_cst_4_apply]
  simp only [Ideal.addf_def, Ideal.maximumf_def, Ideal.ofBits_def]
  unfold rowHidden
  refine congrArg₂ max (congrArg₂ HAdd.hAdd (Finset.sum_congr rfl fun k _ => ?_)
    (congrArg x4 (funext fun a => by match a with | ⟨0, _⟩ => rfl))) rfl
  rw [norm_at, show ridx_main_v24 i k = ix2 (i 2) k from funext fun a => by
    match a with
    | ⟨0, _⟩ => rfl
    | ⟨1, _⟩ => rfl]
  rfl

/-- THE REFERENCE'S RESULT is the adapter layer of its arguments. -/
theorem result_eq_layer :
    val_main_v33 (F := Ideal) x0 x1 x2 x3 x4 x5 x6 = layer x0 x1 x2 x3 x4 x5 x6 := by
  funext i
  rw [val_main_v33_apply, val_main_v30_apply, val_main_v32_apply, val_main_v31_apply]
  simp only [Ideal.addf_def]
  unfold layer rowOut
  refine congrArg₂ HAdd.hAdd (Finset.sum_congr rfl fun k _ => ?_)
    (congrArg x6 (funext fun a => by match a with | ⟨0, _⟩ => rfl))
  rw [hidden_at, show ridx_main_v30 i k = ix2 (i 2) k from funext fun a => by
    match a with
    | ⟨0, _⟩ => rfl
    | ⟨1, _⟩ => rfl]
  rfl

end Cert.ReferenceIdeal.RefValue

end
-- ==== Proof.LibKeepdims.lean ====
/-
  Column forms of the layout operations, read at an index given by its coordinates, and a sum over the columns.

  A reduction over the last axis of a matrix that keeps the axis (`keepdims`) goes through three layout steps: the
  vector of row sums `[a]` is cast to a column `[a, 1]`, arithmetic is done on the column, and the column is broadcast
  back over the columns, `[a, 1] → [a, b]`. At an index `(p, c)` each step reads its operand at row `p`; the sum itself,
  read at row `p` on the extended reals, is the sum over `k` of the entries `(p, k)`. General in the extents `a`, `b`.
-/
import Idealize.ShloMosaic.Lib.ValueLayout
import Idealize.ShloMosaic.PureOps.Ideal.Laws

open scoped BigOperators

namespace Idealize.ShloMosaic.ValueIdx

open Idealize.ShloMosaic

variable {α : Type}

/-- A vector `[a]` cast to a column `[a, 1]` reads, at `(i, u)`, the vector at `i`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float sum over the columns of an `[a, b]` array, read at row `p` at the ideal values, is the sum over `k` of the
    entries `(p, k)` of that row. -/
theorem multiReduction_add_cols_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

end Idealize.ShloMosaic.ValueIdx
-- ==== Proof.KernelPayload.lean ====
/-
  What the kernel body computes, entry by entry: the value it stores at row `p`, column `d` of its output block is
  `Cert.Adapter.rowOut` of row `p` of the input block.

  The body works on a `[512, 2048]` block of rows. The two row sums (mean, variance) are taken over the 2048 columns
  and kept as columns `[512, 1]`; the two matrix products contract the 2048 columns against the down projection
  (held transposed, `[2048, 64]`) and the 64 bottleneck units against the up projection (held transposed,
  `[64, 2048]`), each into a zero accumulator, so at the ideal values each is a plain sum of products. The changes of
  float format around the products are the identity there. Everything else is pointwise in the row.
-/
import proofs.«118989_j37280316129983_1_alg».proof.Proof.Gen.KernelIdeal.Skeleton
import proofs.«118989_j37280316129983_1_alg».proof.Proof.AdapterSpec
import proofs.«118989_j37280316129983_1_alg».proof.Proof.LibKeepdims

noncomputable section

open scoped BigOperators

namespace Cert.KernelIdeal.Body

open Cert.KernelIdeal Cert.KernelIdeal.Gen Cert.Adapter Idealize.ShloMosaic Idealize.ShloMosaic.ValueIdx

/-! ## The two matrix products at an entry

Both have the dimension numbers of a plain product (rows × contraction by contraction × columns): the left
operand is read at `(p, k)`, the right at `(k, c)`, and the contraction index is its one coordinate `k`. -/

theorem lhs_down_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_down_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhs_down_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhs_down_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The down projection: entry `(p, c)` is the sum over the 2048 columns `k` of `lhs (p, k) · rhs (k, c)`. -/
theorem matmul_down_apply (lhs : FVec Ideal S512x2048 .bf16) (rhs : FVec Ideal S2048x64 .bf16) (p : Fin 512) (c : Fin 64) :
    matmul dot_S512x2048_S2048x64_S512x64_1_0_0_1_n_n none lhs rhs (constant S512x64 .f32 0x00000000#32) (ix2 p c)
      = ∑ k : Fin 2048, lhs (ix2 p k) * rhs (ix2 k c) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 p c) ((contrEquiv1 dot_S512x2048_S2048x64_S512x64_1_0_0_1_n_n 2048 rfl rfl).symm k) = ix2 p k := funext fun a => Fin.ext (by
    match a with
    | ⟨0, _⟩ => exact lhs_down_0 _ _
    | ⟨1, _⟩ => exact (lhs_down_1 _ _).trans hk)
  have er : dot_S512x2048_S2048x64_S512x64_1_0_0_1_n_n.rhsIdx (ix2 p c) ((contrEquiv1 dot_S512x2048_S2048x64_S512x64_1_0_0_1_n_n 2048 rfl rfl).symm k) = ix2 k c := funext fun a => Fin.ext (by
    match a with
    | ⟨0, _⟩ => exact (rhs_down_0 _ _).trans hk
    | ⟨1, _⟩ => exact rhs_down_1 _ _)
  rw [el, er]

theorem lhs_up_0 (i : S512x2048.Idx) (q : dot_S512x64_S64x2048_S512x2048_1_0_0_1_n_n.contr.Idx) :
    (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem lhs_up_1 (i : S512x2048.Idx) (q : dot_S512x64_S64x2048_S512x2048_1_0_0_1_n_n.contr.Idx) :
    (dot_S512x64_S64x2048_S512x2048_1_0_0_1_n_n.lhsIdx i q 1).val = (q ⟨0, by decide⟩).val :=
  dot_S512x64_S64x2048_S512x2048_1_0_0_1_n_n.lhsIdx_val_of_single rfl i q
theorem rhs_up_0 (i : S512x2048.Idx) (q : dot_S512x64_S64x2048_S512x2048_1_0_0_1_n_n.contr.Idx) :
    (dot_S512x64_S64x2048_S512x2048_1_0_0_1_n_n.rhsIdx i q 0).val = (q ⟨0, by decide⟩).val :=
  dot_S512x64_S64x2048_S512x2048_1_0_0_1_n_n.rhsIdx_val_of_single rfl i q
theorem rhs_up_1 (i : S512x2048.Idx) (q : dot_S512x64_S64x2048_S512x2048_1_0_0_1_n_n.contr.Idx) :
    (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- The up projection: entry `(p, c)` is the sum over the 64 bottleneck units `k` of `lhs (p, k) · rhs (k, c)`. -/
theorem matmul_up_apply (lhs : FVec Ideal S512x64 .bf16) (rhs : FVec Ideal S64x2048 .bf16) (p : Fin 512) (c : Fin 2048) :
    matmul dot_S512x64_S64x2048_S512x2048_1_0_0_1_n_n none lhs rhs (constant S512x2048 .f32 0x00000000#32) (ix2 p c)
      = ∑ k : Fin 64, lhs (ix2 p k) * rhs (ix2 k c) := by
  simp only [matmul]
  rw [Ideal.matmul_constant_zero_apply, ← Equiv.sum_comp (contrEquiv1 dot_S512x64_S64x2048_S512x2048_1_0_0_1_n_n 64 rfl rfl).symm]
  refine Finset.sum_congr rfl fun k _ => ?_
  have hk := contrEquiv1_symm_val dot_S512x64_S64x2048_S512x2048_1_0_0_1_n_n 64 rfl rfl k
  have el : dot_S512x64_S64x2048_S512x2048_1_0_0_1_n_n.lhsIdx (ix2 p c) ((contrEquiv1 dot_S512x64_S64x2048_S512x2048_1_0_0_1_n_n 64 rfl rfl).symm k) = ix2 p k := funext fun a => Fin.ext (by
    match a with
    | ⟨0, _⟩ => exact lhs_up_0 _ _
    | ⟨1, _⟩ => exact (lhs_up_1 _ _).trans hk)
  have er : dot_S512x64_S64x2048_S512x2048_1_0_0_1_n_n.rhsIdx (ix2 p c) ((contrEquiv1 dot_S512x64_S64x2048_S512x2048_1_0_0_1_n_n 64 rfl rfl).symm k) = ix2 k c := funext fun a => Fin.ext (by
    match a with
    | ⟨0, _⟩ => exact (rhs_up_0 _ _).trans hk
    | ⟨1, _⟩ => exact rhs_up_1 _ _)
  rw [el, er]

/-! ## The row sums and the reciprocal square root at an entry -/

/-- A row sum of the body (an f32 sum over the columns into the zero word), at row `p`: the sum of the row's entries.
    (The two side conditions are typed as the body's own evidence is, so that the equation applies to the body's term.) -/
theorem rowSum_apply {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec 32) = 0x00000000#32) (p : Fin a) :
    multiReduction .add [1] ⟨1, ![a]⟩ src 0x00000000#32 h hφ hacc (ix1 p) = ∑ k : Fin b, src (ix2 p k) :=
  multiReduction_add_cols_apply src _ h hφ hacc p

/-- The reciprocal square root is taken entry by entry. -/
theorem rsqrt_apply {s : Shape} {φ : FTy} (a : FVec Ideal s φ) (i : s.Idx) : rsqrt a i = Ideal.rsqrt (a i) := rfl

/-! ## The stored value -/

/-- THE BODY'S VALUE at row `p`, column `d` of the block: the adapter layer's row function of row `p` of the input
    block `x0`, with `γ = x1`, `β = x2`, the down projection read transposed from `x3`, its bias `x4`, the up projection
    read transposed from `x5` and its bias `x6`. -/
theorem stored_apply (x0 : FVec Ideal S512x2048 .f32) (x1 x2 : FVec Ideal S2048 .f32) (x3 : FVec Ideal S2048x64 .bf16)
    (x4 : FVec Ideal S64 .f32) (x5 : FVec Ideal S64x2048 .bf16) (x6 : FVec Ideal S2048 .f32) (p : Fin 512) (d : Fin 2048) :
    k0_pay1 (F := Ideal) (k0_pay2 x0 x1 x2 x3 x4 x5) x6 (ix2 p d)
      = rowOut (fun k => x0 (ix2 p k)) (fun k => x1 (ix1 k)) (fun k => x2 (ix1 k)) (fun j k => x3 (ix2 k j))
          (fun j => x4 (ix1 j)) (fun e j => x5 (ix2 j e)) (fun e => x6 (ix1 e)) d := by
  unfold k0_pay1 k0_pay2
  -- the index is pushed through the pointwise and the layout operations, and the products become sums;
  simp only [addf_apply, mulf_apply, subf_apply, divf_apply, maximumf_apply, truncf_apply, broadcast_apply,
    broadcastTo_1b_ab_apply, shapeCast_a_1a_apply, broadcastTo_a1_ab_apply, shapeCast_a_a1_apply,
    shapeCast_self, rsqrt_apply, matmul_down_apply, matmul_up_apply, Ideal.ofBits_def]
  -- the two row sums at row `p` (the mean's, then the variance's), and the mean's again inside the variance's terms
  rw [rowSum_apply, rowSum_apply]
  simp only [mulf_apply, subf_apply, divf_apply, broadcast_apply, broadcastTo_a1_ab_apply, shapeCast_a_a1_apply,
    Ideal.ofBits_def]
  rw [rowSum_apply]
  rfl

/-- The same at any index of the block, named by its two coordinates. -/
theorem stored_at (x0 : FVec Ideal S512x2048 .f32) (x1 x2 : FVec Ideal S2048 .f32) (x3 : FVec Ideal S2048x64 .bf16)
    (x4 : FVec Ideal S64 .f32) (x5 : FVec Ideal S64x2048 .bf16) (x6 : FVec Ideal S2048 .f32) (j : S512x2048.Idx) :
    k0_pay1 (F := Ideal) (k0_pay2 x0 x1 x2 x3 x4 x5) x6 j
      = rowOut (fun k => x0 (ix2 (j 0) k)) (fun k => x1 (ix1 k)) (fun k => x2 (ix1 k)) (fun j' k => x3 (ix2 k j'))
          (fun j' => x4 (ix1 j')) (fun e j' => x5 (ix2 j' e)) (fun e => x6 (ix1 e)) (j 1) := by
  obtain ⟨p, d, rfl⟩ : ∃ (p : Fin 512) (d : Fin 2048), j = ix2 p d := ⟨j 0, j 1, eq_ix2 j⟩
  exact stored_apply x0 x1 x2 x3 x4 x5 x6 p d

end Cert.KernelIdeal.Body

end
-- ==== Proof.KernelWhole.lean ====
/-
  The kernel program's result as one function of its arguments: `Cert.Adapter.layer`.

  @main flattens `x` to `[16384, 2048]` rows, transposes the two weight matrices, and launches the body on 32 blocks
  of 512 rows; block `t` covers rows `512·t … 512·t + 511`, the weights and biases are whole-array windows read at
  every point, and each point writes back its own block of the output, so the blocks tile the output array. What
  point `t` writes at row `p` of its block is the row function of row `512·t + p` of the flattened input (the body's
  value, `Body.stored_apply`); the array after the run is therefore one function of the arrays the region was entered
  with. The reshape after the region reads the flattened output at the same row-major position, and the host lines
  before the region are read at an index: the reshape of `x` by row-major position, the transposes by swapping the two
  coordinates, the changes of float format as the identity.
-/
import proofs.«118989_j37280316129983_1_alg».proof.Proof.Gen.KernelIdeal.Frame
import proofs.«118989_j37280316129983_1_alg».proof.Proof.KernelPayload
import Idealize.ShloMosaic.Lib.Pipeline.Value
import Idealize.ShloMosaic.Lib.StableHlo.Run

set_option maxRecDepth 16384

noncomputable section

open scoped BigOperators

namespace Cert.KernelIdeal.Whole

open Cert.KernelIdeal Cert.KernelIdeal.Gen Cert.Adapter
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

theorem zeros1 : (![0] : Fin 1 → Nat) = fun _ => 0 := funext fun a => by fin_cases a <;> rfl
theorem zeros2 : (![0, 0] : Fin 2 → Nat) = fun _ => 0 := funext fun a => by fin_cases a <;> rfl

/-! ## The output array as one function of the arrays the region is entered with -/

/-- Row `i 0` of the flattened input through the layer, at column `i 1`: the down projection is held transposed
    (`[2048, 64]`) and so is the up projection (`[64, 2048]`). -/
def rows (X : S16384x2048.Idx → EReal) (g b : S2048.Idx → EReal) (WdT : S2048x64.Idx → EReal) (bd : S64.Idx → EReal)
    (WuT : S64x2048.Idx → EReal) (bu : S2048.Idx → EReal) : S16384x2048.Idx → EReal := fun i =>
  rowOut (fun k => X (ix2 (i 0) k)) (fun k => g (ix1 k)) (fun k => b (ix1 k)) (fun j k => WdT (ix2 k j))
    (fun j => bd (ix1 j)) (fun e j => WuT (ix2 j e)) (fun e => bu (ix1 e)) (i 1)

/-- The block indices of every window at every grid point: the input rows and the output rows move with the point,
    every other window stays on its one block. -/
theorem idx_facts : ∀ t : Fin cfg0.N,
    win0_0.index t (0 : Fin 2) = t.val ∧ win0_0.index t (1 : Fin 2) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-! ## Each window's block read where it lies in its array -/

/-- Row `p` of input block `t` is row `512·t + p` of the flattened input. -/
theorem xblk_apply (c : Dev nD) (t : Fin cfg0.N) (p : Fin 512) (k : Fin 2048) (r : Fin 16384) (hr : r.val = t.val * 512 + p.val) :
    iblk m c 0 t (ix2 p k) = V m c main_v0 (ix2 r k) := by
  show V m c main_v0 (((cfg0.win 0).blk t).view.emb (ix2 p k)) = V m c main_v0 (ix2 r k)
  refine congrArg (V m c main_v0) (funext fun a => Fin.ext ?_)
  obtain ⟨e0, e1, -⟩ := idx_facts t
  match a with
  | ⟨0, _⟩ => show win0_0.index t (0 : Fin 2) * 512 + 1 * p.val = r.val; omega
  | ⟨1, _⟩ => show win0_0.index t (1 : Fin 2) * 2048 + 1 * k.val = k.val; omega

theorem gblk_apply (c : Dev nD) (t : Fin cfg0.N) (k : Fin 2048) : iblk m c 1 t (ix1 k) = V m c main_arg1 (ix1 k) := by
  show V m c main_arg1 (((cfg0.win 1).blk t).view.emb (ix1 k)) = V m c main_arg1 (ix1 k)
  refine congrArg (V m c main_arg1) (funext fun a => Fin.ext ?_)
  obtain ⟨-, -, e, -⟩ := idx_facts t
  match a with
  | ⟨0, _⟩ => show win0_1.index t (0 : Fin 1) * 2048 + 1 * k.val = k.val; omega

theorem bblk_apply (c : Dev nD) (t : Fin cfg0.N) (k : Fin 2048) : iblk m c 2 t (ix1 k) = V m c main_arg2 (ix1 k) := by
  show V m c main_arg2 (((cfg0.win 2).blk t).view.emb (ix1 k)) = V m c main_arg2 (ix1 k)
  refine congrArg (V m c main_arg2) (funext fun a => Fin.ext ?_)
  obtain ⟨-, -, -, e, -⟩ := idx_facts t
  match a with
  | ⟨0, _⟩ => show win0_2.index t (0 : Fin 1) * 2048 + 1 * k.val = k.val; omega

theorem wdblk_apply (c : Dev nD) (t : Fin cfg0.N) (k : Fin 2048) (j : Fin 64) : iblk m c 3 t (ix2 k j) = V m c main_v2 (ix2 k j) := by
  show V m c main_v2 (((cfg0.win 3).blk t).view.emb (ix2 k j)) = V m c main_v2 (ix2 k j)
  refine congrArg (V m c main_v2) (funext fun a => Fin.ext ?_)
  obtain ⟨-, -, -, -, e0, e1, -⟩ := idx_facts t
  match a with
  | ⟨0, _⟩ => show win0_3.index t (0 : Fin 2) * 2048 + 1 * k.val = k.val; omega
  | ⟨1, _⟩ => show win0_3.index t (1 : Fin 2) * 64 + 1 * j.val = j.val; omega

theorem bdblk_apply (c : Dev nD) (t : Fin cfg0.N) (j : Fin 64) : iblk m c 4 t (ix1 j) = V m c main_arg4 (ix1 j) := by
  show V m c main_arg4 (((cfg0.win 4).blk t).view.emb (ix1 j)) = V m c main_arg4 (ix1 j)
  refine congrArg (V m c main_arg4) (funext fun a => Fin.ext ?_)
  obtain ⟨-, -, -, -, -, -, e, -⟩ := idx_facts t
  match a with
  | ⟨0, _⟩ => show win0_4.index t (0 : Fin 1) * 64 + 1 * j.val = j.val; omega

theorem wublk_apply (c : Dev nD) (t : Fin cfg0.N) (j : Fin 64) (e : Fin 2048) : iblk m c 5 t (ix2 j e) = V m c main_v4 (ix2 j e) := by
  show V m c main_v4 (((cfg0.win 5).blk t).view.emb (ix2 j e)) = V m c main_v4 (ix2 j e)
  refine congrArg (V m c main_v4) (funext fun a => Fin.ext ?_)
  obtain ⟨-, -, -, -, -, -, -, e0, e1, -⟩ := idx_facts t
  match a with
  | ⟨0, _⟩ => show win0_5.index t (0 : Fin 2) * 64 + 1 * j.val = j.val; omega
  | ⟨1, _⟩ => show win0_5.index t (1 : Fin 2) * 2048 + 1 * e.val = e.val; omega

theorem bublk_apply (c : Dev nD) (t : Fin cfg0.N) (e : Fin 2048) : iblk m c 6 t (ix1 e) = V m c main_arg6 (ix1 e) := by
  show V m c main_arg6 (((cfg0.win 6).blk t).view.emb (ix1 e)) = V m c main_arg6 (ix1 e)
  refine congrArg (V m c main_arg6) (funext fun a => Fin.ext ?_)
  obtain ⟨-, -, -, -, -, -, -, -, -, h, -⟩ := idx_facts t
  match a with
  | ⟨0, _⟩ => show win0_6.index t (0 : Fin 1) * 2048 + 1 * e.val = e.val; omega

/-! ## What a point writes back, and the array after the run -/

/-- WHAT POINT `t` WRITES BACK is block `t` of `rows` of the arrays the region is entered with. -/
theorem flushed_eq (c : Dev nD) (t : Fin cfg0.N) :
    (dats m 0 c).flushed 7 t = ((cfg0.win 7).blk t).view.read (Elt Ideal)
      (rows (V m c main_v0) (V m c main_arg1) (V m c main_arg2) (V m c main_v2) (V m c main_arg4) (V m c main_v4)
        (V m c main_arg6)) := by
  show (cfg0.win 7).cut (grid0.coords t) ((dats m 0 c).after 7 t) = _
  rw [after0_7]
  unfold out0_7
  rw [View.canon_unit_zero zeros2]
  simp only [View.ld_unit_zero (S := S512x2048) zeros2, View.ld_unit_zero (S := S2048) zeros1,
    View.ld_unit_zero (S := S2048x64) zeros2, View.ld_unit_zero (S := S64) zeros1,
    View.ld_unit_zero (S := S64x2048) zeros2]
  funext j
  have hN : grid0.N = 32 := N_0
  have ht : t.val < grid0.N := t.isLt
  have hj0 : (j 0).val < 512 := (j 0).isLt
  obtain ⟨-, -, -, -, -, -, -, -, -, -, e70, e71⟩ := idx_facts t
  have hemb : ((cfg0.win 7).blk t).view.emb j
      = ix2 (n0 := 16384) (n1 := 2048) ⟨t.val * 512 + (j 0).val, by omega⟩ (j 1) := by
    funext a; apply Fin.ext
    match a with
    | ⟨0, _⟩ => show win0_7.index t (0 : Fin 2) * 512 + 1 * (j 0).val = t.val * 512 + (j 0).val; omega
    | ⟨1, _⟩ => show win0_7.index t (1 : Fin 2) * 2048 + 1 * (j 1).val = (j 1).val; omega
  show k0_pay1 (k0_pay2 (iblk m c 0 t) (iblk m c 1 t) (iblk m c 2 t) (iblk m c 3 t) (iblk m c 4 t) (iblk m c 5 t)) (iblk m c 6 t) j
    = rows (V m c main_v0) (V m c main_arg1) (V m c main_arg2) (V m c main_v2) (V m c main_arg4) (V m c main_v4)
        (V m c main_arg6) (((cfg0.win 7).blk t).view.emb j)
  rw [hemb]
  refine (Body.stored_at (iblk m c 0 t) (iblk m c 1 t) (iblk m c 2 t) (iblk m c 3 t) (iblk m c 4 t) (iblk m c 5 t)
    (iblk m c 6 t) j).trans ?_
  exact rowOut_congr (fun k => xblk_apply m c t (j 0) k _ rfl) (fun k => gblk_apply m c t k) (fun k => bblk_apply m c t k)
    (fun j' k => wdblk_apply m c t k j') (fun j' => bdblk_apply m c t j') (fun e j' => wublk_apply m c t j' e)
    (fun e => bublk_apply m c t e) (j 1)

/-- An index of the output array is in point `t`'s block iff each coordinate is in the block's range on its axis. -/
theorem mem_blk (t : Fin cfg0.N) (i : S16384x2048.Idx) :
    i ∈ ((cfg0.win 7).blk t).view.set ↔ ∀ a : Fin 2, win0_7.index t a * S512x2048.size a ≤ (i a).val ∧ (i a).val < win0_7.index t a * S512x2048.size a + S512x2048.size a := by
  show i ∈ ((View.whole main_v5).slice (win0_7.rect t)).set ↔ _
  rw [View.set_slice_whole, Rect.mem_set_unit]
  exact Iff.rfl

/-- The 32 blocks of 512 rows tile the 16384 rows: row `r` lies in the block of point `r / 512`. -/
theorem cover (i : S16384x2048.Idx) :
    ∃ t : Fin cfg0.N, (cfg0.win 7).flush t = true ∧ i ∈ ((cfg0.win 7).blk t).view.set := by
  have hN : grid0.N = 32 := N_0
  have hi0 : (i 0).val < 16384 := (i 0).isLt
  have hi1 : (i 1).val < 2048 := (i 1).isLt
  have htlt : (i 0).val / 512 < grid0.N := by omega
  refine ⟨⟨(i 0).val / 512, htlt⟩, flush0_7 _, ?_⟩
  rw [mem_blk]
  obtain ⟨-, -, -, -, -, -, -, -, -, -, e70, e71⟩ := idx_facts ⟨(i 0).val / 512, htlt⟩
  have e70' : win0_7.index ⟨(i 0).val / 512, htlt⟩ (0 : Fin 2) = (i 0).val / 512 := e70
  intro a
  match a with
  | ⟨0, _⟩ =>
    show win0_7.index ⟨(i 0).val / 512, htlt⟩ (0 : Fin 2) * 512 ≤ (i 0).val ∧ (i 0).val < win0_7.index ⟨(i 0).val / 512, htlt⟩ (0 : Fin 2) * 512 + 512
    omega
  | ⟨1, _⟩ =>
    show win0_7.index ⟨(i 0).val / 512, htlt⟩ (1 : Fin 2) * 2048 ≤ (i 1).val ∧ (i 1).val < win0_7.index ⟨(i 0).val / 512, htlt⟩ (1 : Fin 2) * 2048 + 2048
    omega

/-- THE OUTPUT ARRAY AFTER THE RUN is `rows` of the arrays the region is entered with. -/
theorem final (c : Dev nD) : (dats m 0 c).arrAt 7 cfg0.N
    = rows (V m c main_v0) (V m c main_arg1) (V m c main_arg2) (V m c main_v2) (V m c main_arg4) (V m c main_v4)
        (V m c main_arg6) :=
  (dats m 0 c).arrAt_eq_of_cover 7 _ (fun t _ => flushed_eq m c t) cover

end Cert.KernelIdeal.Whole

end
-- ==== Proof.KernelResult.lean ====
/-
  The kernel program's run, with its result named: every weakly fair execution ends with @main's result at
  `Cert.Adapter.layer` of the arguments, and the arguments unchanged.

  The host lines before the region are read at an index (the flattening of `x` keeps the row-major position, so row
  `4096·b + s` of the flattened array is row `(b, s)` of `x`; a transposed weight matrix swaps its two coordinates; the
  change of float format is the identity on the extended reals), and so is the reshape after the region. With the
  output array after the run known as one function of the region-entry arrays (`final`), @main's result at `(b, s, d)`
  is the layer's row function of row `(b, s)` of `x`.
-/
import proofs.«118989_j37280316129983_1_alg».proof.Proof.KernelWhole

set_option maxRecDepth 16384

noncomputable section

open scoped BigOperators

namespace Cert.KernelIdeal.Whole

open Cert.KernelIdeal Cert.KernelIdeal.Gen Cert.Adapter
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-! ## The host lines before the region -/

/-- The region's first operand is `x` flattened to rows. -/
theorem V_main_v0 (c : Dev nD) :
    (V m c main_v0 : S16384x2048.Idx → EReal)
      = shapeCast S16384x2048 (m ((c.tc : Thread nD τ).loc main_arg0)) shapeCasts_S4x4096x2048_S16384x2048 := by
  show StableHlo.after hostOps0 (fun b => m (c, b)) (Proc.devRef .tc main_v0) = _
  after_results
  rfl

/-- Its fourth is the down projection transposed (and converted, which changes nothing here). -/
theorem V_main_v2 (c : Dev nD) :
    (V m c main_v2 : S2048x64.Idx → EReal)
      = truncf (F := Ideal) .bf16 (transpose S2048x64 [1, 0] (m ((c.tc : Thread nD τ).loc main_arg3))
          transposes_S64x2048_S2048x64_1_0) bitsLt_bf16_f32 := by
  show StableHlo.after hostOps0 (fun b => m (c, b)) (Proc.devRef .tc main_v2) = _
  after_results

/-- Its sixth is the up projection transposed (and converted). -/
theorem V_main_v4 (c : Dev nD) :
    (V m c main_v4 : S64x2048.Idx → EReal)
      = truncf (F := Ideal) .bf16 (transpose S64x2048 [1, 0] (m ((c.tc : Thread nD τ).loc main_arg5))
          transposes_S2048x64_S64x2048_1_0) bitsLt_bf16_f32 := by
  show StableHlo.after hostOps0 (fun b => m (c, b)) (Proc.devRef .tc main_v4) = _
  after_results

/-- Row `4096·b + s` of the flattened input is row `(b, s)` of `x`. -/
theorem xflat_apply (c : Dev nD) (b : Fin 4) (s : Fin 4096) (k : Fin 2048) (r : Fin 16384)
    (hr : r.val = b.val * 4096 + s.val) :
    V m c main_v0 (ix2 r k) = m ((c.tc : Thread nD τ).loc main_arg0) (ix3 b s k) := by
  rw [V_main_v0]
  exact shapeCast_apply _ _ _ _ (by
    show (S4x4096x2048.rowMajor (ix3 b s k)).val = (S16384x2048.rowMajor (ix2 r k)).val
    rw [Shape.rowMajor_val_three, Shape.rowMajor_val_two]
    show (b.val * 4096 + s.val) * 2048 + k.val = r.val * 2048 + k.val
    rw [hr])

/-- Entry `(k, j)` of the transposed down projection is entry `(j, k)` of the argument. -/
theorem wdT_apply (c : Dev nD) (k : Fin 2048) (j : Fin 64) :
    V m c main_v2 (ix2 k j) = m ((c.tc : Thread nD τ).loc main_arg3) (ix2 j k) := by
  rw [V_main_v2, truncf_apply]
  exact transpose_ix2_apply _ _ k j

/-- Entry `(j, e)` of the transposed up projection is entry `(e, j)` of the argument. -/
theorem wuT_apply (c : Dev nD) (j : Fin 64) (e : Fin 2048) :
    V m c main_v4 (ix2 j e) = m ((c.tc : Thread nD τ).loc main_arg5) (ix2 e j) := by
  rw [V_main_v4, truncf_apply]
  exact transpose_ix2_apply _ _ j e

/-! ## The host line after the region, and @main's result -/

/-- @main's result is the output array after the run, reshaped to `[4, 4096, 2048]`. -/
theorem tail_eq (c : Dev nD) :
    (Pipeline.afterTail₀ cfgs (dats m) 0 (V0 m) [hostOps1] c main_v6 : S4x4096x2048.Idx → EReal)
      = shapeCast S4x4096x2048 (rows (V m c main_v0) (V m c main_arg1) (V m c main_arg2) (V m c main_v2) (V m c main_arg4) (V m c main_v4)
        (V m c main_arg6)) shapeCasts_S16384x2048_S4x4096x2048 := by
  unfold Pipeline.afterTail₀
  show StableHlo.after hostOps1 _ (Proc.devRef .tc main_v6) = _
  after_results
  rw [show Pipeline.withArrays (cfgs 0).spec c (V0 m c) (fun w => (dats m 0 c).arrAt w (cfgs 0).N) (Proc.devRef .tc main_v5)
      = rows (V m c main_v0) (V m c main_arg1) (V m c main_arg2) (V m c main_v2) (V m c main_arg4) (V m c main_v4)
        (V m c main_arg6)
    from (Pipeline.withArrays_arr spec0 launch0.win.arr_inj c _ _ 7).trans (final m c)]
  rfl

/-- @MAIN'S RESULT is the adapter layer of the arguments. -/
theorem result_eq_layer (c : Dev nD) :
    (Pipeline.afterTail₀ cfgs (dats m) 0 (V0 m) [hostOps1] c main_v6 : S4x4096x2048.Idx → EReal)
      = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [tail_eq]
  funext i
  obtain ⟨b, s, d, rfl⟩ : ∃ (b : Fin 4) (s : Fin 4096) (d : Fin 2048), i = ix3 b s d := ⟨i 0, i 1, i 2, eq_ix3 i⟩
  have hb : b.val < 4 := b.isLt
  have hs : s.val < 4096 := s.isLt
  refine (shapeCast_apply _ _ (ix3 b s d) (ix2 (⟨b.val * 4096 + s.val, by omega⟩ : Fin 16384) d) (by
    show (S16384x2048.rowMajor (ix2 (⟨b.val * 4096 + s.val, by omega⟩ : Fin 16384) d)).val
      = (S4x4096x2048.rowMajor (ix3 b s d)).val
    rw [Shape.rowMajor_val_three, Shape.rowMajor_val_two]; rfl)).trans ?_
  rw [layer_apply]
  exact rowOut_congr (fun k => xflat_apply m c b s k _ rfl) (fun k => congrFun (V_main_arg1 m c) (ix1 k))
    (fun k => congrFun (V_main_arg2 m c) (ix1 k)) (fun j k => wdT_apply m c k j)
    (fun j => congrFun (V_main_arg4 m c) (ix1 j)) (fun e j => wuT_apply m c j e)
    (fun e => congrFun (V_main_arg6 m c) (ix1 e)) d

/-! ## The run -/

/-- From any memory with zero counters: every weakly fair execution of @main terminates with its result at the adapter
    layer of the arguments and the arguments unchanged: an argument a window stages is only read through it, and an
    argument no window stages is written neither by the region nor by the line after it. -/
theorem run : θ_run defs (onTc (τ := τ) (main (F := Ideal))) ⟨m, fun _ => 0, ρ⟩ (fun r => ∀ c : Dev nD,
      r.2.mem ((c.tc : Thread nD τ).loc main_v6) = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v6 (Pipeline.mem_restRefs_of main_v6 (by decide) (by decide))).trans (result_eq_layer m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c)))⟩)
    (run_main m ρ)

end Cert.KernelIdeal.Whole

end
-- ==== Proof.lean ====
/-
  The adapter layer (LayerNorm, a down projection to 64 units, a clip at zero, an up projection back to 2048 columns):
  the Pallas kernel against its jnp reference, over the extended reals.

  Both programs compute, for every row `(b, s)` of `x : [4, 4096, 2048]` and every column `d`,

      out[b, s, d] = Σ_j max(Σ_k norm[b, s, k] · w_down[j, k] + b_down[j], 0) · w_up[d, j] + b_up[d],
      norm[b, s, k] = (x[b, s, k] − μ) · (σ² + ε)^(-1/2) · γ[k] + β[k],

  with `μ` the row's mean and `σ²` the mean of its squared deviations (`Cert.Adapter.layer`, AdapterSpec.lean). The
  kernel flattens `x` to 16384 rows, works on 32 blocks of 512 rows with the weights transposed on the host beforehand,
  contracts through two matrix products into zero accumulators and reshapes the result back; the reference contracts by
  two `dot_general`s on the unflattened array. At the ideal values a matrix product into a zero accumulator and a
  `dot_general` are the same sum of products, the lane sum and the host sum are the same sum (the host's starts from the
  literal zero), the two divisions and the two reciprocal square roots are the same functions, and the changes of float
  format are the identity; the two programs apply the same operations in the same order to the same literals, so no law
  of arithmetic beyond re-indexing the sums is used and the inputs' finiteness is never opened.

  • `frame_Kernel`, `frame_KernelIdeal`: the generated frames. `frame_ReferenceIdeal`: the reference's generated run with
    the result dropped. `preserves`: the ideal pass rewrote nothing.
  • `algebraic`: the kernel's run ends with @main's result at `layer` of the arguments (KernelPayload.lean: the body's
    value at an entry; KernelWhole.lean: the blocks tile the output array; KernelResult.lean: the host lines and the run),
    the reference's run with its result at the same `layer` (RefValue.lean), from memories that agree on the arguments.
-/
import proofs.«118989_j37280316129983_1_alg».proof.Defs
import proofs.«118989_j37280316129983_1_alg».proof.Proof.Gen.Kernel
import proofs.«118989_j37280316129983_1_alg».proof.Proof.Gen.Kernel.Skeleton
import proofs.«118989_j37280316129983_1_alg».proof.Proof.Gen.Kernel.Launch
import proofs.«118989_j37280316129983_1_alg».proof.Proof.Gen.Kernel.Points
import proofs.«118989_j37280316129983_1_alg».proof.Proof.Gen.Kernel.Frame
import proofs.«118989_j37280316129983_1_alg».proof.Proof.Gen.KernelIdeal
import proofs.«118989_j37280316129983_1_alg».proof.Proof.Gen.KernelIdeal.Skeleton
import proofs.«118989_j37280316129983_1_alg».proof.Proof.Gen.KernelIdeal.Launch
import proofs.«118989_j37280316129983_1_alg».proof.Proof.Gen.KernelIdeal.Points
import proofs.«118989_j37280316129983_1_alg».proof.Proof.Gen.KernelIdeal.Frame
import proofs.«118989_j37280316129983_1_alg».proof.Proof.Gen.ReferenceIdeal
import proofs.«118989_j37280316129983_1_alg».proof.Proof.Gen.ReferenceIdeal.Run
import proofs.«118989_j37280316129983_1_alg».proof.Proof.Gen.ReferenceIdeal.Read
import proofs.«118989_j37280316129983_1_alg».proof.Proof.Gen.Pre_finite_inputs
import proofs.«118989_j37280316129983_1_alg».proof.Proof.RefValue
import proofs.«118989_j37280316129983_1_alg».proof.Proof.KernelResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end at the adapter layer of their arguments, and the arguments agree. -/
theorem algebraic : Cert.algebraic_KernelIdeal_ReferenceIdeal := by
  intro m ρ m' ρ' _ hagree
  refine ⟨fun c => Cert.Adapter.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Whole.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6⟩ := hagree c
  rw [(h c).1, Cert.ReferenceIdeal.Read.val_main_v33_eq, Cert.ReferenceIdeal.RefValue.result_eq_layer,
    a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
